-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x50000 : Shape := ⟨3, ![1, 64, 50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S_ : Shape := ⟨0, ![]⟩

class Facts : Prop where
  bcast_S_S1x64x50000 : S_.BroadcastsInDim S1x64x50000 (![] : Fin 0 → Fin S1x64x50000.rank)
  reducesTo_S1x64x50000_S_d0_1_2 : S1x64x50000.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S1x64x50000 .f32) (main_arg1 : FVec F S64x64 .f32) (main_arg2 : FVec F S64 .f32) (main_arg3 : FVec F S64x32 .f32) (main_arg4 : FVec F S32 .f32) (main_arg5 : IVec S2x800000 32) : IVec S_ 1 :=
  let main_v0 : FVec F S1x64x50000 .f32 := Host.absf main_arg0
  let main_cst : FVec F S_ .f32 := constant S_ .f32 0x7F800000#32
  let main_v1 : FVec F S1x64x50000 .f32 := broadcastInDim S1x64x50000 ![] bcast_S_S1x64x50000 main_cst
  let main_v2 : IVec S1x64x50000 1 := cmpf .olt main_v0 main_v1
  let main_c : IVec S_ 1 := constantI S_ 1 1#1
  let main_v3 : IVec S_ 1 := (fun x v => Host.reduce IntOp.andi x v reducesTo_S1x64x50000_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S1x64x50000 : Shape := ⟨3, ![1, 64, 50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S1x50000x64 : Shape := ⟨3, ![1, 50000, 64]⟩
abbrev S50000x64 : Shape := ⟨2, ![50000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x50000x32 : Shape := ⟨3, ![1, 50000, 32]⟩
abbrev S1x32x50000 : Shape := ⟨3, ![1, 32, 50000]⟩

abbrev nBuf : Space → Nat
  | .hbm => 87
  | .vmem => 16
  | .smem => 0
  | _ => 0

abbrev bufTy : (tb : Table) → Fin (tcTables nBuf tb) → BufTy
  | .hbm, ⟨0, _⟩ => ⟨S1x64x50000, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x800000, .i32⟩
  | .hbm, ⟨6, _⟩ => ⟨S1x50000x64, .f32⟩
  | .hbm, ⟨7, _⟩ => ⟨S50000x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x32, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x32, .f32⟩
  | .hbm, ⟨76, _⟩ => ⟨S850000x1, .f32⟩
  | .hbm, ⟨77, _⟩ => ⟨S850000x32, .f32⟩
  | .hbm, ⟨78, _⟩ => ⟨S850000x32, .f32⟩
  | .hbm, ⟨79, _⟩ => ⟨S_, .f32⟩
  | .hbm, ⟨80, _⟩ => ⟨S50000x32, .f32⟩
  | .hbm, ⟨81, _⟩ => ⟨S850000x1, .i32⟩
  | .hbm, ⟨82, _⟩ => ⟨S50000x32, .f32⟩
  | .hbm, ⟨83, _⟩ => ⟨S1x32, .f32⟩
  | .hbm, ⟨84, _⟩ => ⟨S50000x32, .f32⟩
  | .hbm, ⟨85, _⟩ => ⟨S1x50000x32, .f32⟩
  | .hbm, ⟨86, _⟩ => ⟨S1x32x50000, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S1x64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S1x64x50000_S1x50000x64_0_2_1 : S1x64x50000.Transposes [0, 2, 1] S1x50000x64
  shapeCasts_S1x50000x64_S50000x64 : S1x50000x64.ShapeCasts S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S50000x32_S1x50000x32 : S50000x32.ShapeCasts S1x50000x32
  transposes_S1x50000x32_S1x32x50000_0_2_1 : S1x50000x32.Transposes [0, 2, 1] S1x32x50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_v1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x64x50000 : Shape := ⟨3, ![1, 64, 50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S1x50000x64 : Shape := ⟨3, ![1, 50000, 64]⟩
abbrev S50000x64 : Shape := ⟨2, ![50000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S1x50000x32 : Shape := ⟨3, ![1, 50000, 32]⟩
abbrev S1x32x50000 : Shape := ⟨3, ![1, 32, 50000]⟩

abbrev nBuf : Space → Nat
  | .hbm => 129
  | .vmem => 0
  | .smem => 0
  | _ => 0

abbrev hbmTy0_0 (i : Nat) : BufTy := match i % 128 with
  | 0 => ⟨S1x64x50000, .f32⟩
  | 1 => ⟨S64x64, .f32⟩
  | 2 => ⟨S64, .f32⟩
  | 3 => ⟨S64x32, .f32⟩
  | 4 => ⟨S32, .f32⟩
  | 5 => ⟨S2x800000, .i32⟩
  | 6 => ⟨S1x50000x64, .f32⟩
  | 7 => ⟨S50000x64, .f32⟩
  | 8 => ⟨S1x800000, .i32⟩
  | 9 => ⟨S800000, .i32⟩
  | 10 => ⟨S1x800000, .i32⟩
  | 11 => ⟨S800000, .i32⟩
  | 12 => ⟨S50000x64, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x32, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x32, .f32⟩
  | 117 => ⟨S850000x1, .f32⟩
  | 118 => ⟨S850000x32, .f32⟩
  | 119 => ⟨S850000x32, .f32⟩
  | 120 => ⟨S_, .f32⟩
  | 121 => ⟨S50000x32, .f32⟩
  | 122 => ⟨S850000x1, .i32⟩
  | 123 => ⟨S50000x32, .f32⟩
  | 124 => ⟨S1x32, .f32⟩
  | 125 => ⟨S50000x32, .f32⟩
  | 126 => ⟨S50000x32, .f32⟩
  | 127 => ⟨S1x50000x32, .f32⟩
  | _ => ⟨S1x64x50000, .f32⟩

abbrev hbmTy0_1 (i : Nat) : BufTy := match i % 128 with
  | 0 => ⟨S1x32x50000, .f32⟩
  | _ => ⟨S1x64x50000, .f32⟩

abbrev hbmTy (i : Nat) : BufTy := match i / 128 with
  | 0 => hbmTy0_0 i
  | 1 => hbmTy0_1 i
  | _ => ⟨S1x64x50000, .f32⟩

abbrev bufTy : (tb : Table) → Fin (tcTables nBuf tb) → BufTy
  | .hbm, ⟨i, _⟩ => hbmTy i
  | _, _ => ⟨S1x64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  transposes_S1x64x50000_S1x50000x64_0_2_1 : S1x64x50000.Transposes [0, 2, 1] S1x50000x64
  shapeCasts_S1x50000x64_S50000x64 : S1x50000x64.ShapeCasts S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S50000x32_S1x50000x32 : S50000x32.ShapeCasts S1x50000x32
  transposes_S1x50000x32_S1x32x50000_0_2_1 : S1x50000x32.Transposes [0, 2, 1] S1x32x50000
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Region0.lean ====
/-
  The first pallas_call, read as one array.

  The call tiles the 50000 rows of its left operand into ten blocks of 5000 rows, keeps the 64 x 64 right
  operand whole, and at every grid point stores the product of the block with the right operand.  Row `r` of
  the left operand lies in block `r / 5000`, and a row of a product depends on that row of the left operand only,
  so the ten stored blocks are the ten blocks of ONE array: the product of the whole left operand with the right
  one, which is what the host's `dot_general` of the same two arrays computes, entry by entry
  (both are the sum over `k` of `x (r, k) * w (k, q)` on the extended reals; the narrowing of the operands to
  bf16 is the identity there).
-/
import proofs.«117406_j3642132267298_1_alg».proof.Proof.Gen.KernelIdeal.Frame
import proofs.«117406_j3642132267298_1_alg».proof.Proof.LibRowOps
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The host's product of two arrays, typed as the first call's output array. -/
abbrev prod0 (d : DotDims S50000x64 S64x64 S50000x64) (x : S50000x64.Idx → Elt Ideal .f32) (w : S64x64.Idx → Elt Ideal .f32) :
    S50000x64.Idx → Elt Ideal .f32 :=
  Host.dotGeneral (F := Ideal) (φ₁ := .f32) (φ₂ := .f32) d none x w

theorem off_zero : (![0, 0] : Fin 2 → Nat) = fun _ => 0 := funext fun a => by fin_cases a <;> rfl

/-- The printed index maps over the ten grid points: the row-tiled windows move with the point, the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The body's stored value at `(p, q)`: row `p` of the loaded block against column `q` of the loaded weight. -/
theorem pay0_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  rw [shapeCast_self]
  exact RowOps.matmul_plain_apply (M := 5000) (K := 64) (N := 64) dot_S5000x64_S64x64_S5000x64_1_0_0_1_n_n rfl none _ _ p q

/-- Row `p` of the left operand's block at point `t` is row `t * 5000 + p` of the array. -/
theorem blk0_0_apply (c : Dev nD) (t : Fin cfg0.N) (p : Fin 5000) (k : Fin 64) (P : Fin 50000) (hP : P.val = t.val * 5000 + p.val) :
    iblk0 V c 0 t (ix2 p k) = V c main_v1 (ix2 P k) := by
  obtain ⟨e0, e1, -, -, -, -⟩ := idx0 t
  show V c main_v1 (((cfg0.win 0).blk t).view.emb (ix2 p k)) = V c main_v1 (ix2 P k)
  refine congrArg (V c main_v1) (funext fun a => Fin.ext ?_)
  match a with
  | ⟨0, _⟩ => show win0_0.index t (0 : Fin 2) * 5000 + 1 * p.val = P.val; omega
  | ⟨1, _⟩ => show win0_0.index t (1 : Fin 2) * 64 + 1 * k.val = k.val; omega

/-- The weight's block at every point is the weight. -/
theorem blk0_1_apply (c : Dev nD) (t : Fin cfg0.N) (k : Fin 64) (q : Fin 64) :
    iblk0 V c 1 t (ix2 k q) = V c main_arg1 (ix2 k q) := by
  obtain ⟨-, -, e2, e3, -, -⟩ := idx0 t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- Entry `(p, q)` of the output's block at point `t` sits at `(t * 5000 + p, q)` of the array. -/
theorem emb0_2 (t : Fin cfg0.N) (p : Fin 5000) (q : Fin 64) (P : Fin 50000) (hP : P.val = t.val * 5000 + p.val) :
    ((cfg0.win 2).blk t).view.emb (ix2 p q) = ix2 P q := by
  obtain ⟨-, -, -, -, e4, e5⟩ := idx0 t
  refine funext fun a => Fin.ext ?_
  match a with
  | ⟨0, _⟩ => show win0_2.index t (0 : Fin 2) * 5000 + 1 * p.val = P.val; omega
  | ⟨1, _⟩ => show win0_2.index t (1 : Fin 2) * 64 + 1 * q.val = q.val; omega

/-- What point `t` writes back is block `t` of the whole product. -/
theorem flushed0 (c : Dev nD) (d : DotDims S50000x64 S64x64 S50000x64) (hd : d = DotDims.plain 50000 64 64) (t : Fin cfg0.N) :
    (dat0 V c).flushed 2 t
      = ((cfg0.win 2).blk t).view.read (Elt Ideal) (prod0 d (V c main_v1) (V c main_arg1)) := by
  show (cfg0.win 2).cut (grid0.coords t) ((dat0 V c).after 2 t) = _
  rw [after0_2]
  unfold out0_2
  rw [View.canon_unit_zero off_zero]
  simp only [View.ld_unit_zero (S := S5000x64) off_zero, View.ld_unit_zero (S := S64x64) off_zero]
  funext j
  obtain ⟨p, q, rfl⟩ : ∃ (p : Fin 5000) (q : Fin 64), j = ix2 p q := ⟨j 0, j 1, eq_ix2 j⟩
  have ht : t.val < 10 := t.isLt
  have hp : p.val < 5000 := p.isLt
  have hPlt : t.val * 5000 + p.val < 50000 := by omega
  show k0_pay1 (iblk0 V c 0 t) (iblk0 V c 1 t) (ix2 p q)
    = prod0 d (V c main_v1) (V c main_arg1) (((cfg0.win 2).blk t).view.emb (ix2 p q))
  rw [emb0_2 t p q ⟨t.val * 5000 + p.val, hPlt⟩ rfl]
  show _ = Host.dotGeneral (F := Ideal) (φ₁ := .f32) (φ₂ := .f32) d none (V c main_v1) (V c main_arg1) (ix2 (⟨t.val * 5000 + p.val, hPlt⟩ : Fin 50000) q)
  rw [RowOps.dotGeneral_plain_apply d hd, pay0_apply]
  refine Finset.sum_congr rfl fun k _ => ?_
  rw [blk0_0_apply V c t p k ⟨t.val * 5000 + p.val, hPlt⟩ rfl, blk0_1_apply V c t k q]

/-- An index of the output array is in point `t`'s block iff each coordinate is in the block's range. -/
theorem mem_blk0_2 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row lies in some point's block: row `r` in block `r / 5000`. -/
theorem cover0_2' (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  refine ⟨⟨(i 0).val / 5000, by show (i 0).val / 5000 < 10; omega⟩, flush0_2 _, ?_⟩
  rw [mem_blk0_2]
  obtain ⟨-, -, -, -, e4, e5⟩ := idx0 ⟨(i 0).val / 5000, by show (i 0).val / 5000 < 10; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- THE ARRAY the first call leaves: the host's product of its two operands as the call finds them. -/
theorem arr0 (c : Dev nD) (d : DotDims S50000x64 S64x64 S50000x64) (hd : d = DotDims.plain 50000 64 64) :
    (dat0 V c).arrAt 2 cfg0.N = prod0 d (V c main_v1) (V c main_arg1) :=
  (dat0 V c).arrAt_eq_of_cover 2 _ (fun t _ => flushed0 V c d hd t) cover0_2'

end Cert.KernelIdeal.Arr

end
-- ==== Proof.Region1.lean ====
/-
  The second pallas_call, read as one array.

  The call tiles the 50000 rows of its left operand into ten blocks of 5000 rows and keeps the 1 x 64 bias row and
  the 64 x 32 weight whole.  At every grid point it adds the bias row to each row of the block, takes the positive
  part, and stores the product with the weight.  Row `r` of the result depends on row `r` of the left operand only,
  so the ten stored blocks are the ten blocks of ONE array: the host's `dot_general` of the positive part of
  (operand + bias broadcast down the rows) with the weight.  Entry by entry both are the sum over `k` of
  `max (a (r, k) + b k) 0 * w (k, q)` on the extended reals (the narrowing to bf16 is the identity there, and the
  two programs' zero is the same word).  The bias row the call is handed is the bias vector recast to 1 x 64.
-/
import proofs.«117406_j3642132267298_1_alg».proof.Proof.Gen.KernelIdeal.Frame
import proofs.«117406_j3642132267298_1_alg».proof.Proof.LibRowOps
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Arr1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The host's dense layer after a bias and a positive part, typed as the second call's output array: the bias vector
    broadcast down the rows in two steps and added, the maximum with a zero splat, the product with the weight. -/
abbrev layer (d : DotDims S50000x64 S64x32 S50000x32) (a : S50000x64.Idx → Elt Ideal .f32) (b : S64.Idx → Elt Ideal .f32)
    (w : S64x32.Idx → Elt Ideal .f32) (h1 : S64.BroadcastsInDim S1x64 ![1]) (h2 : S1x64.BroadcastsInDim S50000x64 ![0, 1])
    (h0 : S_.BroadcastsInDim S50000x64 ![]) : S50000x32.Idx → Elt Ideal .f32 :=
  Host.dotGeneral (F := Ideal) (φ₁ := .f32) (φ₂ := .f32) d none
    (maximumf (F := Ideal) (φ := .f32) (addf (F := Ideal) (φ := .f32) a (broadcastInDim S50000x64 ![0, 1] h2 (broadcastInDim S1x64 ![1] h1 b)))
      (broadcastInDim S50000x64 ![] h0 (constant (F := Ideal) S_ .f32 0x00000000#32))) w

theorem off_zero : (![0, 0] : Fin 2 → Nat) = fun _ => 0 := funext fun a => by fin_cases a <;> rfl

/-- The printed index maps over the ten grid points: the row-tiled windows move with the point, bias and weight stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0)

/-- The body's stored value at `(p, q)`: the positive part of (row `p` of the block plus the bias row) against column `q` of the weight. -/
theorem pay1_apply (x0 : Vec Ideal S5000x64 .f32) (x1 : Vec Ideal S1x64 .f32) (x2 : Vec Ideal S64x32 .f32) (p : Fin 5000) (q : Fin 32) :
    k1_pay1 x0 x1 x2 (ix2 p q)
      = ∑ k : Fin 64, max (x0 (ix2 p k) + x1 (ix2 (0 : Fin 1) k)) (Ideal.ofBits .f32 0x00000000#32) * x2 (ix2 k q) := by
  unfold k1_pay1
  rw [shapeCast_self, shapeCast_self]
  refine (RowOps.matmul_plain_apply (M := 5000) (K := 64) (N := 32) dot_S5000x64_S64x32_S5000x32_1_0_0_1_n_n rfl none _ _ p q).trans ?_
  refine Finset.sum_congr rfl fun k _ => ?_
  rw [truncf_apply, truncf_apply, maximumf_apply, addf_apply, broadcastTo_1b_ab_apply]
  rfl

/-- Row `p` of the operand's block at point `t` is row `t * 5000 + p` of the array. -/
theorem blk1_0_apply (c : Dev nD) (t : Fin cfg1.N) (p : Fin 5000) (k : Fin 64) (P : Fin 50000) (hP : P.val = t.val * 5000 + p.val) :
    iblk1 V c 0 t (ix2 p k) = V c main_v45 (ix2 P k) := by
  obtain ⟨e0, e1, -, -, -, -, -, -⟩ := idx1 t
  show V c main_v45 (((cfg1.win 0).blk t).view.emb (ix2 p k)) = V c main_v45 (ix2 P k)
  refine congrArg (V c main_v45) (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- The bias row's block at every point is the bias row. -/
theorem blk1_1_apply (c : Dev nD) (t : Fin cfg1.N) (u : Fin 1) (k : Fin 64) :
    iblk1 V c 1 t (ix2 u k) = V c main_v46 (ix2 u k) := by
  obtain ⟨-, -, e2, e3, -, -, -, -⟩ := idx1 t
  show V c main_v46 (((cfg1.win 1).blk t).view.emb (ix2 u k)) = V c main_v46 (ix2 u k)
  refine congrArg (V c main_v46) (funext fun a => Fin.ext ?_)
  match a with
  | ⟨0, _⟩ => show win1_1.index t (0 : Fin 2) * 1 + 1 * u.val = u.val; omega
  | ⟨1, _⟩ => show win1_1.index t (1 : Fin 2) * 64 + 1 * k.val = k.val; omega

/-- The weight's block at every point is the weight. -/
theorem blk1_2_apply (c : Dev nD) (t : Fin cfg1.N) (k : Fin 64) (q : Fin 32) :
    iblk1 V c 2 t (ix2 k q) = V c main_arg3 (ix2 k q) := by
  obtain ⟨-, -, -, -, e4, e5, -, -⟩ := idx1 t
  show V c main_arg3 (((cfg1.win 2).blk t).view.emb (ix2 k q)) = V c main_arg3 (ix2 k q)
  refine congrArg (V c main_arg3) (funext fun a => Fin.ext ?_)
  match a with
  | ⟨0, _⟩ => show win1_2.index t (0 : Fin 2) * 64 + 1 * k.val = k.val; omega
  | ⟨1, _⟩ => show win1_2.index t (1 : Fin 2) * 32 + 1 * q.val = q.val; omega

/-- Entry `(p, q)` of the output's block at point `t` sits at `(t * 5000 + p, q)` of the array. -/
theorem emb1_3 (t : Fin cfg1.N) (p : Fin 5000) (q : Fin 32) (P : Fin 50000) (hP : P.val = t.val * 5000 + p.val) :
    ((cfg1.win 3).blk t).view.emb (ix2 p q) = ix2 P q := by
  obtain ⟨-, -, -, -, -, -, e6, e7⟩ := idx1 t
  refine funext fun a => Fin.ext ?_
  match a with
  | ⟨0, _⟩ => show win1_3.index t (0 : Fin 2) * 5000 + 1 * p.val = P.val; omega
  | ⟨1, _⟩ => show win1_3.index t (1 : Fin 2) * 32 + 1 * q.val = q.val; omega

/-- What point `t` writes back is block `t` of the whole layer. -/
theorem flushed1 (c : Dev nD) (d : DotDims S50000x64 S64x32 S50000x32) (hd : d = DotDims.plain 50000 64 32)
    (b : S64.Idx → Elt Ideal .f32) (hsc : S64.ShapeCasts S1x64) (hb : V c main_v46 = shapeCast S1x64 b hsc)
    (h1 : S64.BroadcastsInDim S1x64 ![1]) (h2 : S1x64.BroadcastsInDim S50000x64 ![0, 1]) (h0 : S_.BroadcastsInDim S50000x64 ![])
    (t : Fin cfg1.N) :
    (dat1 V c).flushed 3 t
      = ((cfg1.win 3).blk t).view.read (Elt Ideal) (layer d (V c main_v45) b (V c main_arg3) h1 h2 h0) := by
  show (cfg1.win 3).cut (grid1.coords t) ((dat1 V c).after 3 t) = _
  rw [after1_3]
  unfold out1_3
  rw [View.canon_unit_zero off_zero]
  simp only [View.ld_unit_zero (S := S5000x64) off_zero, View.ld_unit_zero (S := S1x64) off_zero, View.ld_unit_zero (S := S64x32) off_zero]
  funext j
  obtain ⟨p, q, rfl⟩ : ∃ (p : Fin 5000) (q : Fin 32), j = ix2 p q := ⟨j 0, j 1, eq_ix2 j⟩
  have ht : t.val < 10 := t.isLt
  have hp : p.val < 5000 := p.isLt
  have hPlt : t.val * 5000 + p.val < 50000 := by omega
  show k1_pay1 (iblk1 V c 0 t) (iblk1 V c 1 t) (iblk1 V c 2 t) (ix2 p q)
    = layer d (V c main_v45) b (V c main_arg3) h1 h2 h0 (((cfg1.win 3).blk t).view.emb (ix2 p q))
  rw [emb1_3 t p q ⟨t.val * 5000 + p.val, hPlt⟩ rfl]
  show _ = Host.dotGeneral (F := Ideal) (φ₁ := .f32) (φ₂ := .f32) d none
    (maximumf (F := Ideal) (φ := .f32) (addf (F := Ideal) (φ := .f32) (V c main_v45) (broadcastInDim S50000x64 ![0, 1] h2 (broadcastInDim S1x64 ![1] h1 b)))
      (broadcastInDim S50000x64 ![] h0 (constant (F := Ideal) S_ .f32 0x00000000#32))) (V c main_arg3)
    (ix2 (⟨t.val * 5000 + p.val, hPlt⟩ : Fin 50000) q)
  rw [RowOps.dotGeneral_plain_apply d hd, pay1_apply]
  refine Finset.sum_congr rfl fun k _ => ?_
  rw [blk1_0_apply V c t p k ⟨t.val * 5000 + p.val, hPlt⟩ rfl, blk1_1_apply V c t 0 k, hb, shapeCast_a_1a_apply,
    blk1_2_apply V c t k q, maximumf_apply, addf_apply, RowOps.bias_bcast_apply b ![1] rfl h1 ![0, 1] rfl rfl h2]
  rfl

/-- An index of the output array is in point `t`'s block iff each coordinate is in the block's range. -/
theorem mem_blk1_3 (t : Fin cfg1.N) (i : S50000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v47).slice (win1_3.rect t)).set ↔ _
  rw [View.set_slice_whole, Rect.mem_set_unit]
  exact Iff.rfl

/-- Every row lies in some point's block: row `r` in block `r / 5000`. -/
theorem cover1_3' (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  refine ⟨⟨(i 0).val / 5000, by show (i 0).val / 5000 < 10; omega⟩, flush1_3 _, ?_⟩
  rw [mem_blk1_3]
  obtain ⟨-, -, -, -, -, -, e6, e7⟩ := idx1 ⟨(i 0).val / 5000, by show (i 0).val / 5000 < 10; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 32 ≤ (i 1).val ∧ (i 1).val < win1_3.index _ (1 : Fin 2) * 32 + 32
    rw [e7]; omega

/-- THE ARRAY the second call leaves: the host's dense layer of its operands as the call finds them. -/
theorem arr1 (c : Dev nD) (d : DotDims S50000x64 S64x32 S50000x32) (hd : d = DotDims.plain 50000 64 32)
    (b : S64.Idx → Elt Ideal .f32) (hsc : S64.ShapeCasts S1x64) (hb : V c main_v46 = shapeCast S1x64 b hsc)
    (h1 : S64.BroadcastsInDim S1x64 ![1]) (h2 : S1x64.BroadcastsInDim S50000x64 ![0, 1]) (h0 : S_.BroadcastsInDim S50000x64 ![]) :
    (dat1 V c).arrAt 3 cfg1.N = layer d (V c main_v45) b (V c main_arg3) h1 h2 h0 :=
  (dat1 V c).arrAt_eq_of_cover 3 _ (fun t _ => flushed1 V c d hd b hsc hb h1 h2 h0 t) cover1_3'

end Cert.KernelIdeal.Arr1

end
-- ==== Proof.Region2.lean ====
/-
  The third pallas_call, read as one array.

  The call tiles the 50000 rows of its left operand into ten blocks of 5000 rows, keeps the 1 x 32 bias row
  whole, and at every grid point stores the block with the bias row added to each of its rows.  An entry of the
  result depends on the same entry of the operand and on the bias at its column, so the ten stored blocks are the ten
  blocks of ONE array: the operand plus the bias broadcast down the rows, which is how the host spells the same sum
  (the bias first made a row, then the row repeated).  The bias row the call is handed is the bias vector recast to 1 x 32.
-/
import proofs.«117406_j3642132267298_1_alg».proof.Proof.Gen.KernelIdeal.Frame
import proofs.«117406_j3642132267298_1_alg».proof.Proof.LibRowOps
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Arr2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- An array plus a bias vector broadcast down its rows in the host's two steps, typed as the third call's output array. -/
abbrev biased (a : S50000x32.Idx → Elt Ideal .f32) (b : S32.Idx → Elt Ideal .f32)
    (h1 : S32.BroadcastsInDim S1x32 ![1]) (h2 : S1x32.BroadcastsInDim S50000x32 ![0, 1]) : S50000x32.Idx → Elt Ideal .f32 :=
  addf (F := Ideal) (φ := .f32) a (broadcastInDim S50000x32 ![0, 1] h2 (broadcastInDim S1x32 ![1] h1 b))

theorem off_zero : (![0, 0] : Fin 2 → Nat) = fun _ => 0 := funext fun a => by fin_cases a <;> rfl

/-- The printed index maps over the ten grid points: the row-tiled windows move with the point, the bias row stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- The body's stored value at `(p, q)`: the loaded block's entry plus the bias row's entry at column `q`. -/
theorem pay2_apply (x0 : Vec Ideal S5000x32 .f32) (x1 : Vec Ideal S1x32 .f32) (p : Fin 5000) (q : Fin 32) :
    k2_pay1 x0 x1 (ix2 p q) = x0 (ix2 p q) + x1 (ix2 (0 : Fin 1) q) := by
  unfold k2_pay1
  rw [shapeCast_self, shapeCast_self]
  exact (addf_apply _ _ _).trans (congrArg (x0 (ix2 p q) + ·) (broadcastTo_1b_ab_apply x1 _ p q))

/-- Row `p` of the operand's block at point `t` is row `t * 5000 + p` of the array. -/
theorem blk2_0_apply (c : Dev nD) (t : Fin cfg2.N) (p : Fin 5000) (q : Fin 32) (P : Fin 50000) (hP : P.val = t.val * 5000 + p.val) :
    iblk2 V c 0 t (ix2 p q) = V c main_v60 (ix2 P q) := by
  obtain ⟨e0, e1, -, -, -, -⟩ := idx2 t
  show V c main_v60 (((cfg2.win 0).blk t).view.emb (ix2 p q)) = V c main_v60 (ix2 P q)
  refine congrArg (V c main_v60) (funext fun a => Fin.ext ?_)
  match a with
  | ⟨0, _⟩ => show win2_0.index t (0 : Fin 2) * 5000 + 1 * p.val = P.val; omega
  | ⟨1, _⟩ => show win2_0.index t (1 : Fin 2) * 32 + 1 * q.val = q.val; omega

/-- The bias row's block at every point is the bias row. -/
theorem blk2_1_apply (c : Dev nD) (t : Fin cfg2.N) (u : Fin 1) (q : Fin 32) :
    iblk2 V c 1 t (ix2 u q) = V c main_v61 (ix2 u q) := by
  obtain ⟨-, -, e2, e3, -, -⟩ := idx2 t
  show V c main_v61 (((cfg2.win 1).blk t).view.emb (ix2 u q)) = V c main_v61 (ix2 u q)
  refine congrArg (V c main_v61) (funext fun a => Fin.ext ?_)
  match a with
  | ⟨0, _⟩ => show win2_1.index t (0 : Fin 2) * 1 + 1 * u.val = u.val; omega
  | ⟨1, _⟩ => show win2_1.index t (1 : Fin 2) * 32 + 1 * q.val = q.val; omega

/-- Entry `(p, q)` of the output's block at point `t` sits at `(t * 5000 + p, q)` of the array. -/
theorem emb2_2 (t : Fin cfg2.N) (p : Fin 5000) (q : Fin 32) (P : Fin 50000) (hP : P.val = t.val * 5000 + p.val) :
    ((cfg2.win 2).blk t).view.emb (ix2 p q) = ix2 P q := by
  obtain ⟨-, -, -, -, e4, e5⟩ := idx2 t
  refine funext fun a => Fin.ext ?_
  match a with
  | ⟨0, _⟩ => show win2_2.index t (0 : Fin 2) * 5000 + 1 * p.val = P.val; omega
  | ⟨1, _⟩ => show win2_2.index t (1 : Fin 2) * 32 + 1 * q.val = q.val; omega

/-- What point `t` writes back is block `t` of the whole biased array. -/
theorem flushed2 (c : Dev nD) (b : S32.Idx → Elt Ideal .f32) (hsc : S32.ShapeCasts S1x32) (hb : V c main_v61 = shapeCast S1x32 b hsc)
    (h1 : S32.BroadcastsInDim S1x32 ![1]) (h2 : S1x32.BroadcastsInDim S50000x32 ![0, 1]) (t : Fin cfg2.N) :
    (dat2 V c).flushed 2 t = ((cfg2.win 2).blk t).view.read (Elt Ideal) (biased (V c main_v60) b h1 h2) := by
  show (cfg2.win 2).cut (grid2.coords t) ((dat2 V c).after 2 t) = _
  rw [after2_2]
  unfold out2_2
  rw [View.canon_unit_zero off_zero]
  simp only [View.ld_unit_zero (S := S5000x32) off_zero, View.ld_unit_zero (S := S1x32) off_zero]
  funext j
  obtain ⟨p, q, rfl⟩ : ∃ (p : Fin 5000) (q : Fin 32), j = ix2 p q := ⟨j 0, j 1, eq_ix2 j⟩
  have ht : t.val < 10 := t.isLt
  have hp : p.val < 5000 := p.isLt
  have hPlt : t.val * 5000 + p.val < 50000 := by omega
  show k2_pay1 (iblk2 V c 0 t) (iblk2 V c 1 t) (ix2 p q)
    = biased (V c main_v60) b h1 h2 (((cfg2.win 2).blk t).view.emb (ix2 p q))
  rw [emb2_2 t p q ⟨t.val * 5000 + p.val, hPlt⟩ rfl, pay2_apply,
    blk2_0_apply V c t p q ⟨t.val * 5000 + p.val, hPlt⟩ rfl, blk2_1_apply V c t 0 q, hb, shapeCast_a_1a_apply]
  show _ = addf (F := Ideal) (φ := .f32) (V c main_v60) (broadcastInDim S50000x32 ![0, 1] h2 (broadcastInDim S1x32 ![1] h1 b))
    (ix2 (⟨t.val * 5000 + p.val, hPlt⟩ : Fin 50000) q)
  rw [addf_apply, RowOps.bias_bcast_apply b ![1] rfl h1 ![0, 1] rfl rfl h2]

/-- An index of the output array is in point `t`'s block iff each coordinate is in the block's range. -/
theorem mem_blk2_2 (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v62).slice (win2_2.rect t)).set ↔ _
  rw [View.set_slice_whole, Rect.mem_set_unit]
  exact Iff.rfl

/-- Every row lies in some point's block: row `r` in block `r / 5000`. -/
theorem cover2_2' (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  refine ⟨⟨(i 0).val / 5000, by show (i 0).val / 5000 < 10; omega⟩, flush2_2 _, ?_⟩
  rw [mem_blk2_2]
  obtain ⟨-, -, -, -, e4, e5⟩ := idx2 ⟨(i 0).val / 5000, by show (i 0).val / 5000 < 10; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 32 ≤ (i 1).val ∧ (i 1).val < win2_2.index _ (1 : Fin 2) * 32 + 32
    rw [e5]; omega

/-- THE ARRAY the third call leaves: its operand as the call finds it plus the bias vector broadcast down the rows. -/
theorem arr2 (c : Dev nD) (b : S32.Idx → Elt Ideal .f32) (hsc : S32.ShapeCasts S1x32) (hb : V c main_v61 = shapeCast S1x32 b hsc)
    (h1 : S32.BroadcastsInDim S1x32 ![1]) (h2 : S1x32.BroadcastsInDim S50000x32 ![0, 1]) :
    (dat2 V c).arrAt 2 cfg2.N = biased (V c main_v60) b h1 h2 :=
  (dat2 V c).arrAt_eq_of_cover 2 _ (fun t _ => flushed2 V c b hsc hb h1 h2 t) cover2_2'

end Cert.KernelIdeal.Arr2

end
-- ==== Proof.Bridge.lean ====
/-
  The kernel's result array is the reference's.

  @main of the kernel is six stretches of host operations around three pallas_calls, and the contents of its buffers at
  each boundary are a fold from the launch memory: a stretch rewrites the buffers its operations write, a call rewrites its
  output array and nothing else.  Read back from the result buffer, that fold is: the transposed recast of the third
  call's array; whose operand is the aggregation (gather by source, scale by the edge normalisation, scatter-add by target)
  of the second call's array; whose operand is the aggregation of the first call's array; whose operands are the recast
  transposed input and the first weight.  The index vectors and the edge normalisation are computed once, before the first
  call, and no later stretch or call writes them, so every later read of them goes back to that one computation; the
  reference computes them a second time, by the same operations of the same arguments.

  With each call's array replaced by the host's own operation on its operands (the three region facts, hypotheses
  here), the two programs' results are the same composition of the same operations of arguments that agree: that
  comparison is made for an arbitrary float family, where no operation has anything to unfold.  At the extended reals the
  three region facts hold (Region0, Region1, Region2), which gives the statement used by the claim.
-/
import proofs.«117406_j3642132267298_1_alg».proof.Proof.Gen.KernelIdeal.Frame
import proofs.«117406_j3642132267298_1_alg».proof.Proof.Region0
import proofs.«117406_j3642132267298_1_alg».proof.Proof.Region1
import proofs.«117406_j3642132267298_1_alg».proof.Proof.Region2
import proofs.«117406_j3642132267298_1_alg».proof.Proof.RefRun
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

section AnyFamily

variable {F : FTy → Type} [FloatOps F]
variable (m : (ℓ : Loc nD τ sig) → Buf (Elt F) ℓ) (ρ : Dev nD → PrngReg)
variable (m' : (ℓ : Loc Cert.ReferenceIdeal.nD Cert.ReferenceIdeal.τ Cert.ReferenceIdeal.sig) → Buf (Elt F) ℓ)

/-- The host's product of two arrays, typed as the first call's output array. -/
abbrev hostProd (x : S50000x64.Idx → Elt F .f32) (w : S64x64.Idx → Elt F .f32) : S50000x64.Idx → Elt F .f32 :=
  Host.dotGeneral (F := F) (φ₁ := .f32) (φ₂ := .f32) Cert.ReferenceIdeal.dot_S50000x64_S64x64_S50000x64_1_0_0_1_n_n none x w

/-- The host's dense layer after a bias and a positive part, typed as the second call's output array. -/
abbrev hostLayer (a : S50000x64.Idx → Elt F .f32) (b : S64.Idx → Elt F .f32) (w : S64x32.Idx → Elt F .f32) :
    S50000x32.Idx → Elt F .f32 :=
  Host.dotGeneral (F := F) (φ₁ := .f32) (φ₂ := .f32) Cert.ReferenceIdeal.dot_S50000x64_S64x32_S50000x32_1_0_0_1_n_n none
    (maximumf (F := F) (φ := .f32)
      (addf (F := F) (φ := .f32) a
        (broadcastInDim S50000x64 ![0, 1] Cert.ReferenceIdeal.Gen.bcast_S1x64_S50000x64_0_1 (broadcastInDim S1x64 ![1] Cert.ReferenceIdeal.Gen.bcast_S64_S1x64_1 b)))
      (broadcastInDim S50000x64 ![] Cert.ReferenceIdeal.Gen.bcast_S_S50000x64 (constant (F := F) S_ .f32 0x00000000#32))) w

/-- The host's sum of an array with a bias broadcast down its rows, typed as the third call's output array. -/
abbrev hostBiased (a : S50000x32.Idx → Elt F .f32) (b : S32.Idx → Elt F .f32) : S50000x32.Idx → Elt F .f32 :=
  addf (F := F) (φ := .f32) a
    (broadcastInDim S50000x32 ![0, 1] Cert.ReferenceIdeal.Gen.bcast_S1x32_S50000x32_0_1 (broadcastInDim S1x32 ![1] Cert.ReferenceIdeal.Gen.bcast_S32_S1x32_1 b))

/-- The bias row the third call is handed: the second bias vector recast to one row (no earlier stretch or call writes
    the vector, so the read goes back to the launch memory). -/
theorem V7_v61 (c : Dev nD) :
    V7 m ρ c main_v61 = shapeCast S1x32 (m ((c : Thread nD τ).loc main_arg4)) shapeCasts_S32_S1x32 := by
  show StableHlo.after hostOps2 (W6 m ρ c) (Proc.devRef .tc main_v61) = _
  after_results
  rw [W6_of_ne m ρ c main_arg4 (by decide)]
  simp only [W5]
  after_results
  rw [W4_of_ne m ρ c main_arg4 (by decide)]
  simp only [W3, W2, W1]
  after_results
  try rfl

/-- The bias row the second call is handed: the first bias vector recast to one row. -/
theorem V5_v46 (c : Dev nD) :
    V5 m ρ c main_v46 = shapeCast S1x64 (m ((c : Thread nD τ).loc main_arg2)) shapeCasts_S64_S1x64 := by
  show StableHlo.after hostOps1 (W4 m ρ c) (Proc.devRef .tc main_v46) = _
  after_results
  rw [W4_of_ne m ρ c main_arg2 (by decide)]
  simp only [W3, W2, W1]
  after_results
  try rfl

set_option maxHeartbeats 8000000 in
/-- If each call leaves the host's own operation of its operands, the kernel's result buffer ends at the reference's
    composed term of arguments that agree. -/
theorem host_eq (c : Dev nD)
    (hr0 : (dat0 (V3 m ρ) c).arrAt 2 cfg0.N = hostProd (V3 m ρ c main_v1) (V3 m ρ c main_arg1))
    (hr1 : (dat1 (V5 m ρ) c).arrAt 3 cfg1.N
      = hostLayer (V5 m ρ c main_v45) (m ((c : Thread nD τ).loc main_arg2)) (V5 m ρ c main_arg3))
    (hr2 : (dat2 (V7 m ρ) c).arrAt 2 cfg2.N = hostBiased (V7 m ρ c main_v60) (m ((c : Thread nD τ).loc main_arg4)))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W9 m ρ c (Proc.devRef .tc main_v64) = Cert.ReferenceIdeal.ValueP.res_main_v94 m' c := by
  -- the last stretch: the third call's array recast and transposed
  show StableHlo.after hostOps3 (W8 m ρ c) (Proc.devRef .tc main_v64) = _
  after_results
  rw [show W8 m ρ c (Proc.devRef .tc main_v62) = (dat2 (V7 m ρ) c).arrAt 2 cfg2.N from W8_arr m ρ c 2, hr2]
  -- the stretch before the third call: the aggregation of the second call's array
  simp only [V7, W7]
  after_results
  rw [W6_of_ne m ρ c main_v7 (by decide), W6_of_ne m ρ c main_v8 (by decide), W6_of_ne m ρ c main_v31 (by decide),
    show W6 m ρ c (Proc.devRef .tc main_v47) = (dat1 (V5 m ρ) c).arrAt 3 cfg1.N from W6_arr m ρ c 3, hr1]
  -- the stretch before the second call: the aggregation of the first call's array
  simp only [V5, W5]
  after_results
  rw [W4_of_ne m ρ c main_v7 (by decide), W4_of_ne m ρ c main_v8 (by decide), W4_of_ne m ρ c main_v31 (by decide),
    W4_of_ne m ρ c main_arg3 (by decide),
    show W4 m ρ c (Proc.devRef .tc main_v32) = (dat0 (V3 m ρ) c).arrAt 2 cfg0.N from W4_arr m ρ c 2, hr0]
  -- the stretches before the first call, down to the launch memory; then the reference's term of agreeing arguments
  simp only [V3, W3, W2, W1]
  after_results_simp
  unfold Cert.ReferenceIdeal.ValueP.res_main_v94
  rw [h0, h1, h2, h3, h4, h5]
  rfl

end AnyFamily

/-- At the extended reals, where each call does leave the host's own operation of its operands. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W9 m ρ c (Proc.devRef .tc main_v64) = Cert.ReferenceIdeal.ValueP.res_main_v94 m' c :=
  host_eq m ρ m' c
    (Cert.KernelIdeal.Arr.arr0 (V3 m ρ) c Cert.ReferenceIdeal.dot_S50000x64_S64x64_S50000x64_1_0_0_1_n_n rfl)
    (Cert.KernelIdeal.Arr1.arr1 (V5 m ρ) c Cert.ReferenceIdeal.dot_S50000x64_S64x32_S50000x32_1_0_0_1_n_n rfl _ shapeCasts_S64_S1x64 (V5_v46 m ρ c)
      Cert.ReferenceIdeal.Gen.bcast_S64_S1x64_1 Cert.ReferenceIdeal.Gen.bcast_S1x64_S50000x64_0_1 Cert.ReferenceIdeal.Gen.bcast_S_S50000x64)
    (Cert.KernelIdeal.Arr2.arr2 (V7 m ρ) c _ shapeCasts_S32_S1x32 (V7_v61 m ρ c) Cert.ReferenceIdeal.Gen.bcast_S32_S1x32_1 Cert.ReferenceIdeal.Gen.bcast_S1x32_S50000x32_0_1)
    h0 h1 h2 h3 h4 h5

end Cert.Bridge

end
-- ==== Proof.lean ====
/-
  A two-layer graph convolution against its jnp reference, equal over the extended reals.

  Both programs compute, for 50000 nodes and 850000 edges (800000 given ones and one self loop per node),

      out = A (relu (A (x W1) + b1) W2) + b2,        A h = scatter-add over targets of  norm_e * h[source_e],

  with `norm_e = dinv[source_e] * dinv[target_e]` and `dinv = where (deg > 0, rsqrt deg, 0)` for the in-degree `deg`,
  and return it transposed to [1, 32, 50000].  The reference applies every step on the host.  The kernel keeps the
  edge normalisation and the two aggregations `A` on the host, in the reference's own operations on the reference's own
  index vectors, and does the dense parts in three pallas_calls over ten blocks of 5000 rows each: `x W1`;
  `relu (· + b1) W2`; `· + b2`.

  So the certificate has one thing to show: each call leaves in its output ARRAY what the host's own operation
  leaves (Region0, Region1, Region2: a row of a product, of a biased positive part, of a biased sum depends on that row
  of the tiled operand only, so ten stored blocks are the ten blocks of one array; sums over the contracted axis are the
  same sums; narrowing to bf16 is the identity on the extended reals).  Everything else the two programs apply is the
  same operation to operands already shown equal, and is never opened (Bridge).  No law of the extended reals beyond the
  definition of the operations is used, so the finiteness of the inputs is not needed for the value; the integer
  edge indices may be anything, both programs gathering and scattering through the same total operations.

  The kernel's run names its result array as the contents at the last boundary of @main (KernelRun); the reference's run
  names its result as the composed term of its operations (RefRun).  `preserves` has no entry: the idealized kernel is
  the kernel's own text read at the extended reals.
-/
import proofs.«117406_j3642132267298_1_alg».proof.Defs
import proofs.«117406_j3642132267298_1_alg».proof.Proof.Gen.Kernel
import proofs.«117406_j3642132267298_1_alg».proof.Proof.Gen.Kernel.Frame
import proofs.«117406_j3642132267298_1_alg».proof.Proof.Gen.KernelIdeal
import proofs.«117406_j3642132267298_1_alg».proof.Proof.Gen.KernelIdeal.Frame
import proofs.«117406_j3642132267298_1_alg».proof.Proof.Gen.ReferenceIdeal
import proofs.«117406_j3642132267298_1_alg».proof.Proof.Gen.Pre_finite_inputs
import proofs.«117406_j3642132267298_1_alg».proof.Proof.KernelRun
import proofs.«117406_j3642132267298_1_alg».proof.Proof.RefRun
import proofs.«117406_j3642132267298_1_alg».proof.Proof.Bridge
import Idealize.ShloMosaic.Adequacy
import Idealize.ShloMosaic.Init

noncomputable section

namespace Cert.Proof

open Idealize.ShloMosaic Idealize.SL.Sem

/-- The kernel as printed runs, faults nowhere, and leaves its arguments: the generated frame. -/
theorem frame_kernel : Cert.frame_Kernel := fun m ρ _ => Cert.Kernel.Gen.frame m ρ

/-- The same of the kernel read at the extended reals. -/
theorem frame_kernelIdeal : Cert.frame_KernelIdeal := fun m ρ _ => Cert.KernelIdeal.Gen.frame m ρ

/-- The reference runs and leaves its arguments: its read-back run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the six arguments both programs end, the kernel's result array at the last boundary of
    its run, the reference's at its composed term, and the two are one array. -/
theorem algebraic : Cert.algebraic_KernelIdeal_ReferenceIdeal := by
  intro m ρ m' ρ' _ hagree
  refine ⟨fun c => Cert.KernelIdeal.Gen.W9 m ρ c (Proc.devRef .tc Cert.KernelIdeal.main_v64),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact (Cert.Bridge.result_eq m ρ m' c h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
